-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S262144 : Shape := ⟨1, ![262144]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S262144 : S_.BroadcastsInDim S262144 (![] : Fin 0 → Fin S262144.rank)
  reducesTo_S262144_S_d0 : S262144.ReducesTo [0] S_

variable [Facts]

def fn_part1 {F : FTy → Type} [FloatOps F] (main_arg2 : IVec S262144 32) (main_v8 : IVec S_ 1) (main_v16 : IVec S262144 1) : IVec S_ 1 :=
  let main_c_5 : IVec S_ 32 := constantI S_ 32 8192#32
  let main_v17 : IVec S262144 32 := broadcastInDim S262144 ![] bcast_S_S262144 main_c_5
  let main_v18 : IVec S262144 1 := cmpi .slt main_arg2 main_v17
  let main_v19 : IVec S262144 1 := andi main_v16 main_v18
  let main_c_6 : IVec S_ 1 := constantI S_ 1 1#1
  let main_v20 : IVec S_ 1 := (fun x v => Host.reduce IntOp.andi x v reducesTo_S262144_S_d0 h_S_) main_v19 main_c_6
  let main_v21 : IVec S_ 1 := andi main_v8 main_v20
  main_v21

def fn {F : FTy → Type} [FloatOps F] (main_arg0 : FVec F S8192x8192 .f32) (main_arg1 : IVec S262144 32) (main_arg2 : IVec S262144 32) (main_arg3 : FVec F S262144 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S262144 .f32 := Host.absf main_arg3
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_c_2 : IVec S_ 32 := constantI S_ 32 0#32
  let main_v9 : IVec S262144 32 := broadcastInDim S262144 ![] bcast_S_S262144 main_c_2
  let main_v10 : IVec S262144 1 := cmpi .sge main_arg1 main_v9
  let main_c_3 : IVec S_ 32 := constantI S_ 32 8192#32
  let main_v11 : IVec S262144 32 := broadcastInDim S262144 ![] bcast_S_S262144 main_c_3
  let main_v12 : IVec S262144 1 := cmpi .slt main_arg1 main_v11
  let main_v13 : IVec S262144 1 := andi main_v10 main_v12
  let main_c_4 : IVec S_ 32 := constantI S_ 32 0#32
  let main_v14 : IVec S262144 32 := broadcastInDim S262144 ![] bcast_S_S262144 main_c_4
  let main_v15 : IVec S262144 1 := cmpi .sge main_arg2 main_v14
  let main_v16 : IVec S262144 1 := andi main_v13 main_v15
  fn_part1 (F := F) main_arg2 main_v8 main_v16
-- ==== Kernel.lean ====
abbrev S8192x8192 : Shape := ⟨2, ![8192, 8192]⟩
abbrev S262144 : Shape := ⟨1, ![262144]⟩
abbrev S_ : Shape := ⟨0, ![]⟩
abbrev S262144x1 : Shape := ⟨2, ![262144, 1]⟩
abbrev S262144x2 : Shape := ⟨2, ![262144, 2]⟩
abbrev S8192x1 : Shape := ⟨2, ![8192, 1]⟩
abbrev S128x8192 : Shape := ⟨2, ![128, 8192]⟩
abbrev S128x1 : Shape := ⟨2, ![128, 1]⟩
abbrev S128 : Shape := ⟨1, ![128]⟩
abbrev S8192 : Shape := ⟨1, ![8192]⟩
abbrev S1 : Shape := ⟨1, ![1]⟩

abbrev nBuf : Space → Nat
  | .hbm => 39
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S_, .f32⟩
  | .hbm, ⟨5, _⟩ => ⟨S8192x8192, .f32⟩
  | .hbm, ⟨6, _⟩ => ⟨S_, .i32⟩
  | .hbm, ⟨7, _⟩ => ⟨S262144, .i32⟩
  | .hbm, ⟨8, _⟩ => ⟨S262144, .i1⟩
  | .hbm, ⟨9, _⟩ => ⟨S_, .i32⟩
  | .hbm, ⟨10, _⟩ => ⟨S262144, .i32⟩
  | .hbm, ⟨11, _⟩ => ⟨S262144, .i32⟩
  | .hbm, ⟨12, _⟩ => ⟨S262144, .i32⟩
  | .hbm, ⟨13, _⟩ => ⟨S_, .i32⟩
  | .hbm, ⟨14, _⟩ => ⟨S262144, .i32⟩
  | .hbm, ⟨15, _⟩ => ⟨S262144, .i1⟩
  | .hbm, ⟨16, _⟩ => ⟨S_, .i32⟩
  | .hbm, ⟨17, _⟩ => ⟨S262144, .i32⟩
  | .hbm, ⟨18, _⟩ => ⟨S262144, .i32⟩
  | .hbm, ⟨19, _⟩ => ⟨S262144, .i32⟩
  | .hbm, ⟨20, _⟩ => ⟨S262144x1, .i32⟩
  | .hbm, ⟨21, _⟩ => ⟨S262144x1, .i32⟩
  | .hbm, ⟨22, _⟩ => ⟨S262144x2, .i32⟩
  | .hbm, ⟨23, _⟩ => ⟨S8192x8192, .f32⟩
  | .hbm, ⟨24, _⟩ => ⟨S8192x1, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S1, .f32⟩
  | .hbm, ⟨37, _⟩ => ⟨S8192, .f32⟩
  | .hbm, ⟨38, _⟩ => ⟨S8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128x1, .f32⟩
  | .local _ .vmem, ⟨5, _⟩ => ⟨S128x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S8192x8192 : S_.BroadcastsInDim S8192x8192 (![] : Fin 0 → Fin S8192x8192.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  inb_S128x8192_S128x8192_0_0 : ∀ a, (![0, 0] : Fin 2 → Nat) a + S128x8192.size a ≤ S128x8192.size a
  h_S128x8192 : 0 < S128x8192.numel
  shapeCasts_S128x8192_S128x8192 : S128x8192.ShapeCasts S128x8192
  reduces_S128x8192_S128 : S128x8192.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  scatter_S8192x8192_S262144x2_S262144_n_01_01_1_wf : ScatterDims.WF S8192x8192 S262144x2 S262144 [] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)

variable [Facts₀]

def scatter_S8192x8192_S262144x2_S262144_n_01_01_1 : ScatterDims S8192x8192 S262144x2 S262144 where
  updateWindowDims := []
  insertedWindowDims := [0, 1]
  scatterDimsToOperandDims := [0, 1]
  indexVectorDim := 1
  wf := scatter_S8192x8192_S262144x2_S262144_n_01_01_1_wf

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S262144 : Shape := ⟨1, ![262144]⟩
abbrev S_ : Shape := ⟨0, ![]⟩
abbrev S262144x1 : Shape := ⟨2, ![262144, 1]⟩
abbrev S262144x2 : Shape := ⟨2, ![262144, 2]⟩
abbrev S8192 : Shape := ⟨1, ![8192]⟩
abbrev S1 : Shape := ⟨1, ![1]⟩

abbrev nBuf : Space → Nat
  | .hbm => 40
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S262144, .i32⟩
  | .hbm, ⟨2, _⟩ => ⟨S262144, .i32⟩
  | .hbm, ⟨3, _⟩ => ⟨S262144, .f32⟩
  | .hbm, ⟨4, _⟩ => ⟨S_, .i32⟩
  | .hbm, ⟨5, _⟩ => ⟨S262144, .i32⟩
  | .hbm, ⟨6, _⟩ => ⟨S262144, .i1⟩
  | .hbm, ⟨7, _⟩ => ⟨S_, .i32⟩
  | .hbm, ⟨8, _⟩ => ⟨S262144, .i32⟩
  | .hbm, ⟨9, _⟩ => ⟨S262144, .i32⟩
  | .hbm, ⟨10, _⟩ => ⟨S262144, .i32⟩
  | .hbm, ⟨11, _⟩ => ⟨S_, .i32⟩
  | .hbm, ⟨12, _⟩ => ⟨S262144, .i32⟩
  | .hbm, ⟨13, _⟩ => ⟨S262144, .i1⟩
  | .hbm, ⟨14, _⟩ => ⟨S_, .i32⟩
  | .hbm, ⟨15, _⟩ => ⟨S262144, .i32⟩
  | .hbm, ⟨16, _⟩ => ⟨S262144, .i32⟩
  | .hbm, ⟨17, _⟩ => ⟨S262144, .i32⟩
  | .hbm, ⟨18, _⟩ => ⟨S262144x1, .i32⟩
  | .hbm, ⟨19, _⟩ => ⟨S262144x1, .i32⟩
  | .hbm, ⟨20, _⟩ => ⟨S262144x2, .i32⟩
  | .hbm, ⟨21, _⟩ => ⟨S262144, .f32⟩
  | .hbm, ⟨22, _⟩ => ⟨S262144, .f32⟩
  | .hbm, ⟨23, _⟩ => ⟨S_, .f32⟩
  | .hbm, ⟨24, _⟩ => ⟨S8192, .f32⟩
  | .hbm, ⟨25, _⟩ => ⟨S262144x1, .i32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S1, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S1, .f32⟩
  | .hbm, ⟨38, _⟩ => ⟨S8192, .f32⟩
  | .hbm, ⟨39, _⟩ => ⟨S8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S_S8192 : S_.BroadcastsInDim S8192 (![] : Fin 0 → Fin S8192.rank)
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  gather_S8192x8192_S262144x2_S262144_n_01_n_n_01_1_11_wf : GatherDims.WF S8192x8192 S262144x2 S262144 [] [0, 1] [] [0, 1] [] 1 ![1, 1]
  scatter_S8192_S262144x1_S262144_n_0_0_1_wf : ScatterDims.WF S8192 S262144x1 S262144 [] [0] [0] 1

variable [Facts₀]

def gather_S8192x8192_S262144x2_S262144_n_01_n_n_01_1_11 : GatherDims S8192x8192 S262144x2 S262144 where
  offsetDims := []
  collapsedSliceDims := [0, 1]
  operandBatchingDims := []
  startIndicesBatchingDims := []
  startIndexMap := [0, 1]
  indexVectorDim := 1
  sliceSizes := ![1, 1]
  wf := gather_S8192x8192_S262144x2_S262144_n_01_n_n_01_1_11_wf
def scatter_S8192_S262144x1_S262144_n_0_0_1 : ScatterDims S8192 S262144x1 S262144 where
  updateWindowDims := []
  insertedWindowDims := [0]
  scatterDimsToOperandDims := [0]
  indexVectorDim := 1
  wf := scatter_S8192_S262144x1_S262144_n_0_0_1_wf

class Facts : Prop extends Facts₀ where

variable [Facts]
-- ==== Proof.EdgeIdx.lean ====
/-
  EDGE INDICES. An edge list names cells of an [8192 × 8192] matrix by two vectors of 32-bit words, its rows and its columns.

  * WORDS IN RANGE. A word below 8192 read unsigned is the same number read signed, is not negative, and is left alone by the
    wrap `if w < 0 then w + 8192 else w` that array indexing puts in front of a gather or a scatter.
  * WHERE AN UPDATE LANDS. A scatter's update `j` lands at operand index `i` exactly when, on every axis, its start (read signed,
    not clamped) plus its window coordinate is `i`'s coordinate; otherwise the update is dropped (`resultIdx?_eq_some_iff`).
  * THE THREE INDEXED OPERATIONS of the two programs, each read at edge `e`: the scatter into cells (start indices the [E × 2] table
    of (row, column) pairs, no window), the scatter into rows (start indices the [E × 1] column of rows), and the gather of one
    cell per edge (start indices the [E × 2] table, clamped into the matrix).
-/
import Idealize.ShloMosaic.PureOps.ShapeOps
import Idealize.ShloMosaic.Lib.ValueIdx

namespace Cert.EdgeIdx

open Idealize.ShloMosaic Idealize.ShloMosaic.ValueIdx

/-! ## Words in range -/

theorem ofBool_eq_one (b : Bool) : BitVec.ofBool b = 1#1 ↔ b = true := by cases b <;> decide

/-- A word that is at least 0 and below 8192 as a signed number is below 8192 as an unsigned one. -/
theorem toNat_lt_of_cmp (w : BitVec 32) (h0 : IntOp.cmpi .sge w 0#32 = 1#1) (h1 : IntOp.cmpi .slt w 8192#32 = 1#1) :
    w.toNat < 8192 := by
  unfold IntOp.cmpi at h0 h1
  rw [ofBool_eq_one] at h0 h1
  simp only [BitVec.slt, BitVec.sle, decide_eq_true_eq] at h0 h1
  have h32 := w.isLt
  unfold BitVec.toInt at h0 h1
  split at h1 <;> simp at h0 h1 <;> omega

/-- Read signed, a word below 8192 is its unsigned value. -/
theorem toInt_of_lt (w : BitVec 32) (h : w.toNat < 8192) : w.toInt = (w.toNat : Int) := by
  unfold BitVec.toInt
  rw [if_pos (by omega)]

/-- The wrap of a negative index leaves a word below 8192 as it is. -/
theorem wrap_of_lt (w : BitVec 32) (h : w.toNat < 8192) :
    Scalar.select (IntOp.cmpi .slt w 0#32) (IntOp.addi w 8192#32) w = w := by
  have hn : IntOp.cmpi .slt w 0#32 ≠ 1#1 := by
    unfold IntOp.cmpi
    rw [Ne, ofBool_eq_one]
    simp only [BitVec.slt, decide_eq_true_eq]
    rw [toInt_of_lt w h]
    simp
  unfold Scalar.select
  split
  · rename_i h1; exact absurd h1 hn
  · rfl

/-! ## Where a scatter's update lands -/

/-- Update `j` lands at `i` iff on every axis its start plus its window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e1 : ((d.start j idx a + (d.window j a : Int)).toNat) = (i a).val := congrArg Fin.val (congrFun (Option.some.inj e) a)
      have h2 := h a
      omega
    · intro e
      congr 1
      funext a
      apply Fin.ext
      have e1 := e a
      show (d.start j idx a + (d.window j a : Int)).toNat = (i a).val
      omega
  · rename_i h
    constructor
    · intro e; cases e
    · intro e
      exact absurd (fun a => by have e1 := e a; have h3 := (i a).isLt; omega) h

/-! ## The shapes and the three operations' dimension numbers -/

abbrev SNN : Shape := ⟨2, ![8192, 8192]⟩
abbrev SN : Shape := ⟨1, ![8192]⟩
abbrev SE : Shape := ⟨1, ![262144]⟩
abbrev SE1 : Shape := ⟨2, ![262144, 1]⟩
abbrev SE2 : Shape := ⟨2, ![262144, 2]⟩

/-- One update per edge into one CELL: both operand axes are scattered, no window. -/
abbrev cellDims (wf : ScatterDims.WF SNN SE2 SE [] [0, 1] [0, 1] 1) : ScatterDims SNN SE2 SE :=
  { updateWindowDims := [], insertedWindowDims := [0, 1], scatterDimsToOperandDims := [0, 1], indexVectorDim := 1, wf := wf }

/-- One update per edge into one ROW ENTRY of a vector. -/
abbrev rowDims (wf : ScatterDims.WF SN SE1 SE [] [0] [0] 1) : ScatterDims SN SE1 SE :=
  { updateWindowDims := [], insertedWindowDims := [0], scatterDimsToOperandDims := [0], indexVectorDim := 1, wf := wf }

/-- One cell gathered per edge: both operand axes collapsed, slices of one element. -/
abbrev pointDims (wf : GatherDims.WF SNN SE2 SE [] [0, 1] [] [0, 1] [] 1 ![1, 1]) : GatherDims SNN SE2 SE :=
  { offsetDims := [], collapsedSliceDims := [0, 1], operandBatchingDims := [], startIndicesBatchingDims := [],
    startIndexMap := [0, 1], indexVectorDim := 1, sliceSizes := ![1, 1], wf := wf }

/-! ## The scatter into cells -/

theorem cell_start0 (wf : ScatterDims.WF SNN SE2 SE [] [0, 1] [0, 1] 1) (e : Fin 262144) (idx : IVec SE2 32) :
    (cellDims wf).start (ix1 e) idx 0 = (idx (ix2 e 0)).toInt := by
  unfold ScatterDims.start
  rw [dif_pos (show (0 : Fin 2) ∈ ([0, 1] : List (Fin 2)) by decide)]
  refine congrArg (fun k => (idx k).toInt) ?_
  funext b
  match b with
  | ⟨0, _⟩ => rfl
  | ⟨1, _⟩ => rfl

theorem cell_start1 (wf : ScatterDims.WF SNN SE2 SE [] [0, 1] [0, 1] 1) (e : Fin 262144) (idx : IVec SE2 32) :
    (cellDims wf).start (ix1 e) idx 1 = (idx (ix2 e 1)).toInt := by
  unfold ScatterDims.start
  rw [dif_pos (show (1 : Fin 2) ∈ ([0, 1] : List (Fin 2)) by decide)]
  refine congrArg (fun k => (idx k).toInt) ?_
  funext b
  match b with
  | ⟨0, _⟩ => rfl
  | ⟨1, _⟩ => rfl

theorem cell_window (wf : ScatterDims.WF SNN SE2 SE [] [0, 1] [0, 1] 1) (j : SE.Idx) (a : Fin 2) :
    (cellDims wf).window j a = 0 := by
  unfold ScatterDims.window
  rw [dif_neg ((show ∀ a : Fin 2, a ∉ SNN.kept ([0, 1] : List (Fin 2)) by decide) a)]

/-- Edge `e`'s update lands in cell (r, q) iff its start-index pair, read signed, is (r, q). -/
theorem cell_lands (wf : ScatterDims.WF SNN SE2 SE [] [0, 1] [0, 1] 1) (e : Fin 262144) (idx : IVec SE2 32) (r q : Fin 8192) :
    (cellDims wf).resultIdx? (ix1 e) idx = some (ix2 r q)
      ↔ (idx (ix2 e 0)).toInt = (r.val : Int) ∧ (idx (ix2 e 1)).toInt = (q.val : Int) := by
  rw [resultIdx?_eq_some_iff, Fin.forall_fin_two, cell_start0, cell_start1, cell_window, cell_window]
  simp

/-! ## The scatter into rows -/

theorem row_start (wf : ScatterDims.WF SN SE1 SE [] [0] [0] 1) (e : Fin 262144) (idx : IVec SE1 32) :
    (rowDims wf).start (ix1 e) idx 0 = (idx (ix2 e 0)).toInt := by
  unfold ScatterDims.start
  rw [dif_pos (show (0 : Fin 1) ∈ ([0] : List (Fin 1)) by decide)]
  refine congrArg (fun k => (idx k).toInt) ?_
  funext b
  match b with
  | ⟨0, _⟩ => rfl
  | ⟨1, _⟩ => rfl

theorem row_window (wf : ScatterDims.WF SN SE1 SE [] [0] [0] 1) (j : SE.Idx) (a : Fin 1) :
    (rowDims wf).window j a = 0 := by
  unfold ScatterDims.window
  rw [dif_neg ((show ∀ a : Fin 1, a ∉ SN.kept ([0] : List (Fin 1)) by decide) a)]

/-- Edge `e`'s update lands in row `r` iff its start index, read signed, is `r`. -/
theorem row_lands (wf : ScatterDims.WF SN SE1 SE [] [0] [0] 1) (e : Fin 262144) (idx : IVec SE1 32) (r : Fin 8192) :
    (rowDims wf).resultIdx? (ix1 e) idx = some (ix1 r) ↔ (idx (ix2 e 0)).toInt = (r.val : Int) := by
  rw [resultIdx?_eq_some_iff, Fin.forall_fin_one, row_start, row_window]
  simp

/-! ## The gather of one cell per edge -/

/-- Edge `e` reads cell (r, q) when its start-index pair, read signed, is (r, q), a pair inside the matrix (no clamp binds). -/
theorem point_reads (wf : GatherDims.WF SNN SE2 SE [] [0, 1] [] [0, 1] [] 1 ![1, 1]) (e : Fin 262144) (idx : IVec SE2 32)
    (r q : Fin 8192) (hr : (idx (ix2 e 0)).toInt = (r.val : Int)) (hq : (idx (ix2 e 1)).toInt = (q.val : Int)) :
    (pointDims wf).operandIdx (ix1 e) idx = ix2 r q := by
  have s0 : (pointDims wf).start (ix1 e) idx 0 = r.val := by
    unfold GatherDims.start
    rw [dif_pos (show (0 : Fin 2) ∈ ([0, 1] : List (Fin 2)) by decide)]
    have : (pointDims wf).siIdx (ix1 e) ⟨List.idxOf (0 : Fin 2) [0, 1], (show List.idxOf (0 : Fin 2) [0, 1] < ([0, 1] : List (Fin 2)).length by decide)⟩ = ix2 e 0 := by
      funext b
      match b with
      | ⟨0, _⟩ => rfl
      | ⟨1, _⟩ => rfl
    rw [this, hr]
    have := r.isLt
    show min ((r.val : Int)).toNat (8192 - 1) = r.val
    omega
  have s1 : (pointDims wf).start (ix1 e) idx 1 = q.val := by
    unfold GatherDims.start
    rw [dif_pos (show (1 : Fin 2) ∈ ([0, 1] : List (Fin 2)) by decide)]
    have : (pointDims wf).siIdx (ix1 e) ⟨List.idxOf (1 : Fin 2) [0, 1], (show List.idxOf (1 : Fin 2) [0, 1] < ([0, 1] : List (Fin 2)).length by decide)⟩ = ix2 e 1 := by
      funext b
      match b with
      | ⟨0, _⟩ => rfl
      | ⟨1, _⟩ => rfl
    rw [this, hq]
    have := q.isLt
    show min ((q.val : Int)).toNat (8192 - 1) = q.val
    omega
  funext a
  apply Fin.ext
  match a with
  | ⟨0, _⟩ =>
    show (pointDims wf).start (ix1 e) idx 0 + (pointDims wf).batchCoord (ix1 e) 0 + (pointDims wf).offCoord (ix1 e) 0 = r.val
    rw [s0, (pointDims wf).batchCoord_eq_zero _ _ (show (0 : Fin 2) ∉ ([] : List (Fin 2)) by decide),
      (pointDims wf).offCoord_eq_zero _ _ (show (0 : Fin 2) ∉ SNN.kept (([0, 1] : List (Fin 2)) ++ []) by decide)]
    rfl
  | ⟨1, _⟩ =>
    show (pointDims wf).start (ix1 e) idx 1 + (pointDims wf).batchCoord (ix1 e) 1 + (pointDims wf).offCoord (ix1 e) 1 = q.val
    rw [s1, (pointDims wf).batchCoord_eq_zero _ _ (show (1 : Fin 2) ∉ ([] : List (Fin 2)) by decide),
      (pointDims wf).offCoord_eq_zero _ _ (show (1 : Fin 2) ∉ SNN.kept (([0, 1] : List (Fin 2)) ++ []) by decide)]
    rfl

end Cert.EdgeIdx
-- ==== Proof.Edges.lean ====
/-
  THE ROW SUMS OF AN EDGE LIST. Edge `e` of a list of 262144 edges sits in row `x1 e` and column `x2 e` of an [8192 × 8192]
  matrix `x0` and carries the weight `x3 e`. Row `r`'s sum is, over the edges of that row, the matrix entry under the edge
  times the edge's weight, added to zero:

      rowSumAt x0 x1 x2 x3 r = 0 + ∑ {e | x1 e = r} x0 (r, x2 e) * x3 e.

  This is what both programs compute for their second result, when every row and column word names a row and a column
  (`InRange`); the first result is the softmax of these sums, the same operations in both programs.
-/
import proofs.«406384_j64398739637009_3_alg».proof.Proof.EdgeIdx

noncomputable section

open Finset

namespace Cert.Edges

open Idealize.ShloMosaic Idealize.ShloMosaic.ValueIdx Cert.EdgeIdx

/-- The column (or row) a word names. Taken modulo 8192 so that it is defined for every word; a word in range names itself. -/
def colOf (w : BitVec 32) : Fin 8192 := ⟨w.toNat % 8192, Nat.mod_lt _ (by decide)⟩

theorem colOf_val (w : BitVec 32) (h : w.toNat < 8192) : (colOf w).val = w.toNat := Nat.mod_eq_of_lt h

/-- Every word of an index vector is below 8192 (as a signed number: at least 0 and below 8192). -/
def InRange (x : SE.Idx → BitVec 32) : Prop := ∀ e, (x e).toNat < 8192

/-- Every entry of an array of extended reals is a real number. -/
def Finite {s : Shape} (x : s.Idx → EReal) : Prop := ∀ i, ∃ v : ℝ, x i = (v : EReal)

/-- Row `r`'s sum over the edge list. -/
def rowSumAt (x0 : SNN.Idx → EReal) (x1 x2 : SE.Idx → BitVec 32) (x3 : SE.Idx → EReal) (r : Fin 8192) : EReal :=
  0 + ∑ e ∈ univ.filter (fun e : SE.Idx => (x1 e).toNat = r.val), x0 (ix2 r (colOf (x2 e))) * x3 e

/-- All the row sums, as a vector. -/
def rowSums (x0 : SNN.Idx → EReal) (x1 x2 : SE.Idx → BitVec 32) (x3 : SE.Idx → EReal) : SN.Idx → EReal :=
  fun i => rowSumAt x0 x1 x2 x3 (i 0)

theorem rowSums_apply (x0 : SNN.Idx → EReal) (x1 x2 : SE.Idx → BitVec 32) (x3 : SE.Idx → EReal) (r : Fin 8192) :
    rowSums x0 x1 x2 x3 (ix1 r) = rowSumAt x0 x1 x2 x3 r := rfl

end Cert.Edges

end
-- ==== Proof.PreDecode.lean ====
/-
  THE PRECONDITION, DECODED. The precondition is one bit: the conjunction of "every matrix entry has absolute value below +∞",
  "every edge weight has absolute value below +∞", and "every row word and every column word is at least 0 and below 8192
  (read signed)". When that bit is 1, every conjunct holds at every index: the float inputs are real numbers and the index
  words are below 8192 read unsigned.
-/
import proofs.«406384_j64398739637009_3_alg».proof.Pre_finite_inputs
import proofs.«406384_j64398739637009_3_alg».proof.Proof.Edges
import Idealize.ShloMosaic.Lib.ReduceAll
import Idealize.ShloMosaic.Lib.Pipeline.Value
import Idealize.ShloMosaic.PureOps.Ideal.Laws
noncomputable section
namespace Cert.PreDecode
open Idealize.ShloMosaic Idealize.ShloMosaic.ValueIdx Cert.Edges Cert.EdgeIdx

/-- The bit pattern 0x7F800000 denotes +∞. -/
theorem inf_bits : Ideal.ofBits .f32 0x7F800000#32 = (⊤ : EReal) := by
  simp [Ideal.ofBits, Ideal.ieee]

/-- An extended real whose absolute value is below +∞ is a real number. -/
theorem real_of_abs_lt_inf (x : EReal)
    (h : Ideal.cmp .olt (max x (-x)) (Ideal.ofBits .f32 0x7F800000#32) = 1#1) : ∃ v : ℝ, x = (v : EReal) := by
  rw [inf_bits] at h
  unfold Ideal.cmp at h
  rw [ofBool_eq_one] at h
  have h' : max x (-x) < ⊤ := by simpa using h
  induction x using EReal.rec with
  | bot => simp at h'
  | coe v => exact ⟨v, rfl⟩
  | top => simp at h'

/-- A scalar broadcast to any shape reads, at every index, the scalar. -/
theorem bcast_scalar {α : Type} {t : Shape}
    (hb : Cert.Pre_finite_inputs.S_.BroadcastsInDim t (![] : Fin 0 → Fin t.rank))
    (c : Cert.Pre_finite_inputs.S_.Idx → α) (i : t.Idx) :
    broadcastInDim t ![] hb c i = c ix0 :=
  broadcastInDim_apply _ hb _ i ix0 (fun a => a.elim0)

/-- Every entry's absolute value compared below the broadcast +∞: every entry is real. -/
theorem finite_of_all {s : Shape}
    (hb : Cert.Pre_finite_inputs.S_.BroadcastsInDim s (![] : Fin 0 → Fin s.rank)) (x : s.Idx → EReal)
    (a : ∀ i, cmpf (F := Ideal) (φ := .f32) .olt (Host.absf (F := Ideal) (φ := .f32) x)
      (broadcastInDim s ![] hb (constant (F := Ideal) Cert.Pre_finite_inputs.S_ .f32 0x7F800000#32)) i = 1#1) :
    Finite x := by
  intro i
  have hbv : broadcastInDim s ![] hb (constant (F := Ideal) Cert.Pre_finite_inputs.S_ .f32 0x7F800000#32) i
      = Ideal.ofBits .f32 0x7F800000#32 := bcast_scalar hb _ i
  refine real_of_abs_lt_inf (x i) ?_
  exact (congrArg (fun z => Ideal.cmp .olt (max (x i) (-(x i))) z) hbv).symm.trans (a i)

/-- A comparison of a vector against a broadcast constant, read at an index. -/
theorem cmpi_bcast {t : Shape}
    (hb : Cert.Pre_finite_inputs.S_.BroadcastsInDim t (![] : Fin 0 → Fin t.rank)) (p : CmpIPredicate)
    (x : t.Idx → BitVec 32) (c : BitVec 32) (i : t.Idx)
    (q : cmpi p x (broadcastInDim t ![] hb (constantI Cert.Pre_finite_inputs.S_ 32 c)) i = 1#1) :
    IntOp.cmpi p (x i) c = 1#1 := by
  have hbv : broadcastInDim t ![] hb (constantI Cert.Pre_finite_inputs.S_ 32 c) i = c := bcast_scalar hb _ i
  exact (congrArg (fun z => IntOp.cmpi p (x i) z) hbv).symm.trans q

/-- The precondition's one result word being 1 says: every matrix entry and every edge weight is a real number, and every
    row word and every column word is below 8192. -/
theorem of_pre [Cert.Pre_finite_inputs.Facts] (x0 : SNN.Idx → EReal) (x1 x2 : SE.Idx → BitVec 32) (x3 : SE.Idx → EReal)
    (h : Cert.Pre_finite_inputs.fn (F := Ideal) x0 x1 x2 x3 = fun _ => 1#1) :
    Finite x0 ∧ Finite x3 ∧ InRange x1 ∧ InRange x2 := by
  haveI : Subsingleton Cert.Pre_finite_inputs.S_.Idx := ⟨fun a b => funext fun d => d.elim0⟩
  -- the one result word is 1
  have e := congrFun h ValueIdx.ix0
  unfold Cert.Pre_finite_inputs.fn Cert.Pre_finite_inputs.fn_part1 at e
  -- split the three conjuncts: matrix finite, weights finite, indices in range
  obtain ⟨e8, e20⟩ := IntOp.andi_eq_one.1 e
  obtain ⟨e3, e7⟩ := IntOp.andi_eq_one.1 e8
  -- each "all" holds at every index
  have a3 := Host.reduce_andi_all _ _ _ _ _ e3
  have a7 := Host.reduce_andi_all _ _ _ _ _ e7
  have a20 := Host.reduce_andi_all _ _ _ _ _ e20
  have r : ∀ e : SE.Idx, (x1 e).toNat < 8192 ∧ (x2 e).toNat < 8192 := fun e => by
    obtain ⟨q1, q4⟩ := IntOp.andi_eq_one.1 (a20 e)
    obtain ⟨q2, q3⟩ := IntOp.andi_eq_one.1 q1
    obtain ⟨q5, q6⟩ := IntOp.andi_eq_one.1 q2
    exact ⟨toNat_lt_of_cmp _ (cmpi_bcast _ _ x1 _ e q5) (cmpi_bcast _ _ x1 _ e q6),
      toNat_lt_of_cmp _ (cmpi_bcast _ _ x2 _ e q3) (cmpi_bcast _ _ x2 _ e q4)⟩
  exact ⟨finite_of_all _ x0 a3, finite_of_all _ x3 a7, fun e => (r e).1, fun e => (r e).2⟩
end Cert.PreDecode
end
-- ==== Proof.KernelPay.lean ====
/-
  WHAT THE BODY STORES. At one grid point the body loads a [128 × 8192] block of the matrix and the same block of the per-cell
  totals, multiplies them entry by entry, sums each row over its 8192 lanes from the accumulator zero, and stores the 128
  sums as a [128 × 1] column. Entry (p, 0) of what it stores is therefore the plain sum

      ∑ q, x0 (p, q) * x1 (p, q)

  at the extended reals, where the lane reduction is the exact sum and a cast between shapes of one row-major order moves
  nothing.
-/
import proofs.«406384_j64398739637009_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen

/-- Row `p` of the block with lane `q` put back is the entry (p, q). -/
theorem lift_row (p : Fin 128) (q : Fin (S128x8192.size 1)) :
    reduces_S128x8192_S128.lift (ix1 p) q = ix2 p (⟨q.val, q.isLt⟩ : Fin 8192) := by
  funext c; apply Fin.ext
  fin_cases c <;> rfl

/-- The stored column at row `p`: the row's products summed over the lanes. -/
theorem pay_apply (x0 x1 : Vec Ideal S128x8192 .f32) (p : Fin 128) :
    k0_pay1 (F := Ideal) x0 x1 (ix2 p (0 : Fin 1)) = ∑ q : Fin 8192, x0 (ix2 p q) * x1 (ix2 p q) := by
  unfold k0_pay1
  refine (shapeCast_apply _ shapeCasts_S128_S128x1 (ix2 p (0 : Fin 1)) (ix1 p) ?_).trans ?_
  · rw [Shape.rowMajor_val_one, Shape.rowMajor_val_two]
    show p.val = p.val * 1 + 0
    omega
  · refine (Ideal.multiReduction_add_single (s := S128x8192) (t := S128) (a := (1 : Fin 2)) _ 0x00000000#32
      reduces_S128x8192_S128 (.inl rfl) rfl (ix1 p)).trans ?_
    show ∑ k : Fin 8192, _ = _
    refine Finset.sum_congr rfl fun q _ => ?_
    rw [lift_row p q, shapeCast_self]
    rfl

end Cert.KernelIdeal.Hand

end
-- ==== Proof.KernelArray.lean ====
/-
  FROM THE BLOCKS TO THE ARRAY. The region's grid has 64 points; point `t` reads rows 128·t … 128·t + 127 of the matrix (window 0)
  and of the per-cell totals (window 1), all 8192 columns of them, and writes rows 128·t … 128·t + 127 of the [8192 × 1] result
  (window 2). What it writes in row `p` of its block is the sum over the lanes of the products of the two loaded rows, which
  is row 128·t + p of

      rowDots A M (r, 0) = ∑ q, A (r, q) * M (r, q),

  a function of the two whole arrays. Every row r lies in the block of the point r / 128, so after the run the result array
  is `rowDots` of the two arrays as the region found them.
-/
import proofs.«406384_j64398739637009_3_alg».proof.Proof.Gen.KernelIdeal.Frame
import proofs.«406384_j64398739637009_3_alg».proof.Proof.KernelPay
import Idealize.ShloMosaic.Lib.Pipeline.Value

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-- Row by row, the products of two [8192 × 8192] arrays summed over the columns, as an [8192 × 1] column. -/
def rowDots (A M : S8192x8192.Idx → EReal) : S8192x1.Idx → EReal :=
  fun i => ∑ q : Fin 8192, A (ix2 (⟨(i 0).val, (i 0).isLt⟩ : Fin 8192) q) * M (ix2 (⟨(i 0).val, (i 0).isLt⟩ : Fin 8192) q)

theorem offsets_zero : (![0, 0] : Fin 2 → Nat) = fun _ => 0 := funext fun a => by fin_cases a <;> rfl

/-- ONE POINT, over literal types: if the two loaded blocks are rows T·128 … of `A` and `M`, the stored column at `y` is
    `rowDots A M` at the row T·128 + y. -/
theorem stored_eq_rowDots (A M : S8192x8192.Idx → EReal) (x0 x1 : Vec Ideal S128x8192 .f32) (T : Nat)
    (h0 : ∀ (p : Fin 128) (q : Fin 8192) (k : S8192x8192.Idx), (k 0).val = T * 128 + p.val → (k 1).val = q.val → x0 (ix2 p q) = A k)
    (h1 : ∀ (p : Fin 128) (q : Fin 8192) (k : S8192x8192.Idx), (k 0).val = T * 128 + p.val → (k 1).val = q.val → x1 (ix2 p q) = M k)
    (y : S128x1.Idx) (i : S8192x1.Idx) (hi : (i 0).val = T * 128 + (y 0).val) :
    k0_pay1 (F := Ideal) x0 x1 y = rowDots A M i := by
  obtain ⟨p, z, rfl⟩ : ∃ (p : Fin 128) (z : Fin 1), y = ix2 p z := ⟨y 0, y 1, eq_ix2 y⟩
  obtain rfl : z = 0 := Subsingleton.elim _ _
  rw [pay_apply]
  unfold rowDots
  refine Finset.sum_congr rfl fun q _ => ?_
  rw [h0 p q (ix2 (⟨(i 0).val, (i 0).isLt⟩ : Fin 8192) q) hi rfl, h1 p q (ix2 (⟨(i 0).val, (i 0).isLt⟩ : Fin 8192) q) hi rfl]

/-- The printed index maps, decided once over the grid: the two input windows move with the output window along the rows and
    stay at column block 0; the output's column block is 0. -/
theorem index_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0 :=
  (by decide +kernel : ∀ t : Fin grid0.N, _)

/-- Every row block is some point's. -/
theorem index_onto : ∀ b : Fin 64, ∃ t : Fin cfg0.N, win0_2.index t = ![b.val, 0] :=
  (by decide +kernel : ∀ b : Fin 64, ∃ t : Fin grid0.N, win0_2.index t = ![b.val, 0])

variable (m : (ℓ : Loc nD τ sig) → Buf (Elt Ideal) ℓ)

/-- WHAT POINT `t` WRITES BACK is block `t` of `rowDots` of the two arrays as the region finds them. -/
theorem flushed_eq (c : Dev nD) (t : Fin cfg0.N) :
    (dats m 0 c).flushed 2 t
      = ((cfg0.win 2).blk t).view.read (Elt Ideal) (rowDots (V m c main_arg0) (V m c main_v14)) := by
  show (cfg0.win 2).cut (grid0.coords t) ((dats m 0 c).after 2 t) = _
  rw [after0_2]
  unfold out0_2
  rw [View.canon_unit_zero offsets_zero]
  simp only [View.ld_unit_zero (S := S128x8192) offsets_zero]
  obtain ⟨e0, e1, e2, e3, e4⟩ := index_facts t
  funext j
  refine stored_eq_rowDots (V m c main_arg0) (V m c main_v14) (iblk m c 0 t) (iblk m c 1 t) (win0_2.index t (0 : Fin 2)) ?_ ?_ j
    (((cfg0.win 2).blk t).view.emb j) ?_
  · intro p q k hk0 hk1
    show V m c main_arg0 (((cfg0.win 0).blk t).view.emb (ix2 p q)) = V m c main_arg0 k
    refine congrArg (V m c main_arg0) (funext fun a => Fin.ext ?_)
    match a with
    | ⟨0, _⟩ => show win0_0.index t (0 : Fin 2) * 128 + 1 * p.val = (k 0).val; rw [e0, hk0]; omega
    | ⟨1, _⟩ => show win0_0.index t (1 : Fin 2) * 8192 + 1 * q.val = (k 1).val; rw [e1, hk1]; omega
  · intro p q k hk0 hk1
    show V m c main_v14 (((cfg0.win 1).blk t).view.emb (ix2 p q)) = V m c main_v14 k
    refine congrArg (V m c main_v14) (funext fun a => Fin.ext ?_)
    match a with
    | ⟨0, _⟩ => show win0_1.index t (0 : Fin 2) * 128 + 1 * p.val = (k 0).val; rw [e2, hk0]; omega
    | ⟨1, _⟩ => show win0_1.index t (1 : Fin 2) * 8192 + 1 * q.val = (k 1).val; rw [e3, hk1]; omega
  · show win0_2.index t (0 : Fin 2) * 128 + 1 * (j 0).val = win0_2.index t (0 : Fin 2) * 128 + (j 0).val
    omega

/-- An index of the result array is in point `t`'s block iff each coordinate is in the block's range on its axis. -/
theorem mem_block (t : Fin cfg0.N) (i : S8192x1.Idx) :
    i ∈ ((cfg0.win 2).blk t).view.set
      ↔ ∀ a : Fin 2, win0_2.index t a * S128x1.size a ≤ (i a).val ∧ (i a).val < win0_2.index t a * S128x1.size a + S128x1.size a := by
  show i ∈ ((View.whole main_v15).slice (win0_2.rect t)).set ↔ _
  rw [View.set_slice_whole, Rect.mem_set_unit]
  exact Iff.rfl

/-- Row r of the result is written back by the point r / 128. -/
theorem covered (i : S8192x1.Idx) :
    ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ := index_onto ⟨(i 0).val / 128, by omega⟩
  have q0 : win0_2.index t (0 : Fin 2) = (i 0).val / 128 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 128 ≤ (i 0).val ∧ (i 0).val < win0_2.index t (0 : Fin 2) * 128 + 128
    omega
  | ⟨1, _⟩ =>
    show win0_2.index t (1 : Fin 2) * 1 ≤ (i 1).val ∧ (i 1).val < win0_2.index t (1 : Fin 2) * 1 + 1
    omega

/-- THE RESULT ARRAY after the run: each row's products of the matrix and the per-cell totals, summed. -/
theorem array_eq (c : Dev nD) :
    (dats m 0 c).arrAt 2 cfg0.N = rowDots (V m c main_arg0) (V m c main_v14) :=
  (dats m 0 c).arrAt_eq_of_cover 2 _ (fun t _ => flushed_eq m c t) covered

end Cert.KernelIdeal.Hand

end
-- ==== Proof.EdgeTable.lean ====
/-
  THE START-INDEX TABLE. Both programs turn the row words and the column words into one [E × 2] table of start indices: each
  vector is first passed through the wrap of negative indices (`w + 8192` where `w < 0`), then laid out as an [E × 1] column,
  and the two columns are joined side by side. For words in range the wrap changes nothing, so entry (e, 0) of the table is
  the row word of edge `e` and entry (e, 1) its column word.
-/
import proofs.«406384_j64398739637009_3_alg».proof.Proof.Edges
import Idealize.ShloMosaic.Lib.Pipeline.Value

noncomputable section

namespace Cert.Edges

open Idealize.ShloMosaic Idealize.ShloMosaic.ValueIdx Cert.EdgeIdx

abbrev S0 : Shape := ⟨0, ![]⟩

/-- A vector of index words after the wrap of negative ones. -/
def wrapped (hb0 : S0.BroadcastsInDim SE (![] : Fin 0 → Fin SE.rank)) (x : SE.Idx → BitVec 32) : SE.Idx → BitVec 32 :=
  select (cmpi .slt x (broadcastInDim SE ![] hb0 (constantI S0 32 0#32)))
    (addi x (broadcastInDim SE ![] hb0 (constantI S0 32 8192#32))) x

/-- The [E × 2] table: column 0 the wrapped rows, column 1 the wrapped columns. -/
def table (hb0 : S0.BroadcastsInDim SE (![] : Fin 0 → Fin SE.rank)) (hb1 : SE.BroadcastsInDim SE1 (![0] : Fin 1 → Fin SE1.rank))
    (hc : Shape.Concatenates [SE1, SE1] SE2 1) (x1 x2 : SE.Idx → BitVec 32) : SE2.Idx → BitVec 32 :=
  concatenate SE2 1 [⟨SE1, broadcastInDim SE1 ![0] hb1 (wrapped hb0 x1)⟩, ⟨SE1, broadcastInDim SE1 ![0] hb1 (wrapped hb0 x2)⟩] hc

/-- In range, the wrap is the identity. -/
theorem wrapped_apply (hb0 : S0.BroadcastsInDim SE (![] : Fin 0 → Fin SE.rank)) (x : SE.Idx → BitVec 32) (h : InRange x)
    (i : SE.Idx) : wrapped hb0 x i = x i := by
  show Scalar.select (IntOp.cmpi .slt (x i) (broadcastInDim SE ![] hb0 (constantI S0 32 0#32) i))
    (IntOp.addi (x i) (broadcastInDim SE ![] hb0 (constantI S0 32 8192#32) i)) (x i) = x i
  rw [broadcastInDim_apply _ hb0 _ i (fun a => a.elim0) (fun a => a.elim0),
    broadcastInDim_apply _ hb0 _ i (fun a => a.elim0) (fun a => a.elim0)]
  exact wrap_of_lt (x i) (h i)

/-- An [E × 1] column made of a vector reads the vector. -/
theorem column_apply (hb1 : SE.BroadcastsInDim SE1 (![0] : Fin 1 → Fin SE1.rank)) (x : SE.Idx → BitVec 32) (e : Fin 262144) :
    broadcastInDim SE1 ![0] hb1 x (ix2 e (0 : Fin 1)) = x (ix1 e) :=
  broadcastInDim_apply _ hb1 x (ix2 e (0 : Fin 1)) (ix1 e) (fun a => match a with
    | ⟨0, _⟩ => by show e.val = if (262144 : Nat) = 1 then 0 else e.val; rw [if_neg (by decide)])

/-- Entry (e, 0) of the table is edge `e`'s row word. -/
theorem table_row (hb0 : S0.BroadcastsInDim SE (![] : Fin 0 → Fin SE.rank)) (hb1 : SE.BroadcastsInDim SE1 (![0] : Fin 1 → Fin SE1.rank))
    (hc : Shape.Concatenates [SE1, SE1] SE2 1) (x1 x2 : SE.Idx → BitVec 32) (h1 : InRange x1) (e : Fin 262144) :
    table hb0 hb1 hc x1 x2 (ix2 e (0 : Fin 2)) = x1 (ix1 e) := by
  unfold table
  refine (concatenate_pair_apply_left (t := SE2) (s₁ := SE1) (s₂ := SE1) (1 : Fin 2) _ _ hc (ix2 e (0 : Fin 2)) rfl (ix2 e (0 : Fin 1))
    (fun b => match b with | ⟨0, _⟩ => rfl | ⟨1, _⟩ => rfl)).trans ?_
  rw [column_apply]
  exact wrapped_apply hb0 x1 h1 (ix1 e)

/-- Entry (e, 1) of the table is edge `e`'s column word. -/
theorem table_col (hb0 : S0.BroadcastsInDim SE (![] : Fin 0 → Fin SE.rank)) (hb1 : SE.BroadcastsInDim SE1 (![0] : Fin 1 → Fin SE1.rank))
    (hc : Shape.Concatenates [SE1, SE1] SE2 1) (x1 x2 : SE.Idx → BitVec 32) (h2 : InRange x2) (e : Fin 262144) :
    table hb0 hb1 hc x1 x2 (ix2 e (1 : Fin 2)) = x2 (ix1 e) := by
  unfold table
  refine (concatenate_pair_apply_right (t := SE2) (s₁ := SE1) (s₂ := SE1) (1 : Fin 2) _ _ hc (ix2 e (1 : Fin 2)) rfl rfl (ix2 e (0 : Fin 1))
    (fun b hb => match b, hb with | ⟨0, _⟩, _ => rfl | ⟨1, _⟩, hb => absurd rfl hb) rfl).trans ?_
  rw [column_apply]
  exact wrapped_apply hb0 x2 h2 (ix1 e)

end Cert.Edges

end
-- ==== Proof.KernelCells.lean ====
/-
  THE MATRIX OF PER-CELL TOTALS. Before its region the kernel scatters the edge weights into a zero [8192 × 8192] matrix at the
  (row, column) pairs of the start-index table. At the extended reals the scatter with an add is exact: cell (r, q) ends at
  zero plus the sum of the weights of the edges whose pair is (r, q). With every word in range the pair of edge `e` is its
  row word and its column word themselves, so

      cellTotals x1 x2 x3 (r, q) = 0 + ∑ {e | x1 e = r ∧ x2 e = q} x3 e.
-/
import proofs.«406384_j64398739637009_3_alg».proof.KernelIdeal
import proofs.«406384_j64398739637009_3_alg».proof.Proof.EdgeTable
import Idealize.ShloMosaic.PureOps.Ideal.Laws

noncomputable section

open Finset

namespace Cert.KernelIdeal.Hand

open Idealize.ShloMosaic Idealize.ShloMosaic.ValueIdx Cert.Edges Cert.EdgeIdx Cert.KernelIdeal

variable [Cert.KernelIdeal.Facts]
open Cert.KernelIdeal.Facts₀

/-- The matrix the region's second window reads: the edge weights scattered, with an add, into zeros at the table's pairs. -/
def cellTotals (x1 x2 : SE.Idx → BitVec 32) (x3 : SE.Idx → EReal) : SNN.Idx → EReal :=
  Host.scatterAdd (F := Ideal) scatter_S8192x8192_S262144x2_S262144_n_01_01_1
    (broadcastInDim S8192x8192 ![] bcast_S_S8192x8192 (constant (F := Ideal) S_ .f32 0x00000000#32))
    (table bcast_S_S262144 bcast_S262144_S262144x1_0 concatenates_S262144x1_S262144x1_S262144x2_d1 x1 x2) x3

/-- Cell (r, q) holds the total weight of the edges in row `r` and column `q`. -/
theorem cellTotals_apply (x1 x2 : SE.Idx → BitVec 32) (x3 : SE.Idx → EReal) (h1 : InRange x1) (h2 : InRange x2)
    (r q : Fin 8192) :
    cellTotals x1 x2 x3 (ix2 r q)
      = 0 + ∑ e ∈ univ.filter (fun e : SE.Idx => (x1 e).toNat = r.val ∧ (x2 e).toNat = q.val), x3 e := by
  unfold cellTotals Host.scatterAdd
  rw [Ideal.hostScatterAdd_def]
  unfold Ideal.hostScatterAdd
  have hz : (broadcastInDim S8192x8192 ![] bcast_S_S8192x8192 (constant (F := Ideal) S_ .f32 0x00000000#32)
      : SNN.Idx → EReal) (ix2 r q) = 0 := by
    rw [broadcastInDim_apply _ bcast_S_S8192x8192 _ (ix2 r q) (fun a => a.elim0) (fun a => a.elim0)]
    exact Ideal.ofBits_zero_f32
  rw [hz]
  refine congrArg (fun t : EReal => 0 + t) ?_
  refine Finset.sum_congr (Finset.filter_congr fun e _ => ?_) (fun _ _ => rfl)
  obtain ⟨k, rfl⟩ : ∃ k : Fin 262144, e = ix1 k := ⟨e 0, eq_ix1 e⟩
  have hrec : scatter_S8192x8192_S262144x2_S262144_n_01_01_1
      = cellDims scatter_S8192x8192_S262144x2_S262144_n_01_01_1_wf := rfl
  rw [hrec, cell_lands, table_row _ _ _ _ _ h1, table_col _ _ _ _ _ h2, toInt_of_lt _ (h1 _), toInt_of_lt _ (h2 _)]
  simp

end Cert.KernelIdeal.Hand

end
-- ==== Proof.Softmax.lean ====
/-
  THE SOFTMAX BOTH PROGRAMS APPLY. Each program ends by taking the softmax of its vector of row sums, with the same operations
  in the same order: the maximum of the entries (folded from −∞, and once more against −∞), the entries shifted by it, their
  exponentials, the sum of the exponentials from zero, and the quotient. Written once here as a function of the vector, so
  that two programs whose row sums agree have equal softmaxes without the operations being opened.
-/
import proofs.«406384_j64398739637009_3_alg».proof.Proof.EdgeIdx
import Idealize.ShloMosaic.PureOps.Ideal

noncomputable section

namespace Cert.Edges

open Idealize.ShloMosaic Cert.EdgeIdx

abbrev Z0 : Shape := ⟨0, ![]⟩
abbrev Z1 : Shape := ⟨1, ![1]⟩

/-- The entries' maximum, as a scalar. -/
def vecMax (A : SN.Idx → EReal) : Z0.Idx → EReal :=
  maximumf (F := Ideal) (φ := .f32) (constant (F := Ideal) Z0 .f32 0xFF800000#32)
    (Host.reduce (FloatOps.maximumf (F := Ideal) (φ := .f32)) A (constant (F := Ideal) Z0 .f32 0xFF800000#32)
      (by decide : SN.ReducesTo [0] Z0) (by decide : 0 < Z0.numel))

/-- A scalar laid out over the vector's shape. -/
def spread (v : Z0.Idx → EReal) : SN.Idx → EReal :=
  broadcastInDim SN ![0] (by decide : Z1.BroadcastsInDim SN (![0] : Fin 1 → Fin SN.rank))
    (broadcastInDim Z1 ![] (by decide : Z0.BroadcastsInDim Z1 (![] : Fin 0 → Fin Z1.rank)) v)

/-- The exponentials of the entries shifted by their maximum. -/
def shiftedExp (A : SN.Idx → EReal) : SN.Idx → EReal :=
  Host.exp (F := Ideal) (φ := .f32) (subf (F := Ideal) (φ := .f32) A (spread (vecMax A)))

/-- The softmax: each shifted exponential over their sum. -/
def softmax (A : SN.Idx → EReal) : SN.Idx → EReal :=
  Host.divf (F := Ideal) (φ := .f32) (shiftedExp A)
    (spread (Host.reduceAdd (F := Ideal) (φ := .f32) (shiftedExp A) (constant (F := Ideal) Z0 .f32 0x00000000#32)
      (by decide : SN.ReducesTo [0] Z0) (by decide : 0 < Z0.numel)))

end Cert.Edges

end
-- ==== Proof.EdgeSum.lean ====
/-
  A ROW SUM WEIGHTED BY PER-CELL TOTALS IS THE SUM OVER THE ROW'S EDGES.

  A finite family of edges `e`, each carrying a column `C e` and a weight `v e`; some of them (`P e`) lie in the row we
  look at. Collect, for every column `q`, the total weight `∑ {e | P e ∧ C e = q} v e` of the row's edges that fall in that
  column, and pair it with the row's entry `d q`:

      ∑ q, d q * ∑ {e | P e ∧ C e = q} v e  =  ∑ {e | P e} d (C e) * v e.

  Distribute `d q` over the inner sum, replace `d q` by `d (C e)` on each term, and the double sum over the fibres of `C` is the
  single sum over the row's edges. The distribution is where finiteness is needed: on the extended reals `x * (a + b)` is not
  `x * a + x * b` at the infinities, so the identity is proved over ℝ and carried to coerced reals.
-/
import Mathlib.Algebra.BigOperators.Group.Finset.Basic
import Mathlib.Algebra.BigOperators.Ring.Finset
import Mathlib.Data.EReal.Operations

open Finset

namespace Cert.EdgeSum

variable {ι κ : Type*}

/-- The coercion ℝ → EReal commutes with a finite sum. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: the fibres of the column map cut the row's edges into the per-column groups. -/
theorem row_sum_real [Fintype ι] [Fintype κ] [DecidableEq κ] (P : ι → Prop) [DecidablePred P] (C : ι → κ)
    (d : κ → ℝ) (v : ι → ℝ) :
    ∑ q, d q * ∑ e ∈ univ.filter (fun e => P e ∧ C e = q), v e = ∑ e ∈ univ.filter P, d (C e) * v e := by
  calc ∑ q, d q * ∑ e ∈ univ.filter (fun e => P e ∧ C e = q), v e
      = ∑ q, ∑ e ∈ (univ.filter P).filter (fun e => C e = q), d (C e) * v e := by
        refine Finset.sum_congr rfl fun q _ => ?_
        rw [Finset.mul_sum, Finset.filter_filter]
        refine Finset.sum_congr rfl fun e he => ?_
        rw [(Finset.mem_filter.mp he).2.2]
    _ = ∑ e ∈ univ.filter P, d (C e) * v e := Finset.sum_fiberwise _ _ _

/-- The same on coerced reals, with the zero each total and each row sum starts from. -/
theorem row_sum_coe [Fintype ι] [Fintype κ] [DecidableEq κ] (P : ι → Prop) [DecidablePred P] (C : ι → κ)
    (d : κ → ℝ) (v : ι → ℝ) :
    ∑ q, (d q : EReal) * (0 + ∑ e ∈ univ.filter (fun e => P e ∧ C e = q), (v e : EReal))
      = 0 + ∑ e ∈ univ.filter P, (d (C e) : EReal) * (v e : EReal) := by
  simp only [zero_add, ← coe_sum, ← EReal.coe_mul]
  exact congrArg _ (row_sum_real P C d v)

/-- The form the two programs meet in: entries and weights are extended reals known to be finite. -/
theorem row_sum_of_finite [Fintype ι] [Fintype κ] [DecidableEq κ] (P : ι → Prop) [DecidablePred P] (C : ι → κ)
    (D : κ → EReal) (V : ι → EReal) (hD : ∀ q, ∃ x : ℝ, D q = x) (hV : ∀ e, ∃ x : ℝ, V e = x) :
    ∑ q, D q * (0 + ∑ e ∈ univ.filter (fun e => P e ∧ C e = q), V e)
      = 0 + ∑ e ∈ univ.filter P, D (C e) * V e := by
  choose d hd using hD
  choose v hv using hV
  simp only [hd, hv]
  exact row_sum_coe P C d v

end Cert.EdgeSum
-- ==== Proof.RowLaw.lean ====
/-
  THE TWO FORMS OF A ROW SUM MEET. The kernel pairs each entry of row `r` of the matrix with the total weight of the edges in
  that cell and sums over the columns; the reference sums, over the edges of row `r`, the entry under the edge times the
  edge's weight. With the column words in range (so that "the column word is q" is "the edge's column is q") and all entries
  and weights real numbers (so that an entry distributes over a cell's total), the first is the second.
-/
import proofs.«406384_j64398739637009_3_alg».proof.Proof.Edges
import proofs.«406384_j64398739637009_3_alg».proof.Proof.EdgeSum

noncomputable section

open Finset

namespace Cert.Edges

open Idealize.ShloMosaic Idealize.ShloMosaic.ValueIdx Cert.EdgeIdx Cert.EdgeSum

/-- Row `r`'s entries against the per-cell totals, summed over the columns, is row `r`'s sum over the edge list. -/
theorem dots_eq_rowSum (x0 : SNN.Idx → EReal) (x1 x2 : SE.Idx → BitVec 32) (x3 : SE.Idx → EReal) (h2 : InRange x2)
    (f0 : Finite x0) (f3 : Finite x3) (r : Fin 8192) :
    ∑ q : Fin 8192, x0 (ix2 r q)
        * (0 + ∑ e ∈ univ.filter (fun e : SE.Idx => (x1 e).toNat = r.val ∧ (x2 e).toNat = q.val), x3 e)
      = rowSumAt x0 x1 x2 x3 r := by
  unfold rowSumAt
  refine Eq.trans ?_ (row_sum_of_finite (fun e : SE.Idx => (x1 e).toNat = r.val) (fun e => colOf (x2 e))
    (fun q => x0 (ix2 r q)) x3 (fun q => f0 _) f3)
  refine Finset.sum_congr rfl fun q _ => ?_
  refine congrArg (fun s : EReal => x0 (ix2 r q) * (0 + s)) ?_
  refine Finset.sum_congr (Finset.filter_congr fun e _ => ?_) fun _ _ => rfl
  rw [Fin.ext_iff, colOf_val _ (h2 e)]

end Cert.Edges

end
-- ==== Proof.KernelRun.lean ====
/-
  THE KERNEL PROGRAM'S RUN, READ. Before its region the program builds the matrix of per-cell totals of the edge weights; the
  region leaves, in its [8192 × 1] result, each row's products of the matrix and those totals summed; after the region the
  column is read as a vector — the program's second result — and its softmax is the first result.

  With the row and column words in range the per-cell totals are the sums over the edges of each cell, and with every entry
  and weight a real number an entry distributes over a cell's total: the second result is the vector of row sums of the
  edge list, the first its softmax.
-/
import proofs.«406384_j64398739637009_3_alg».proof.Proof.Gen.KernelIdeal.Frame
import proofs.«406384_j64398739637009_3_alg».proof.Proof.KernelArray
import proofs.«406384_j64398739637009_3_alg».proof.Proof.KernelCells
import proofs.«406384_j64398739637009_3_alg».proof.Proof.Softmax
import proofs.«406384_j64398739637009_3_alg».proof.Proof.RowLaw
import Idealize.ShloMosaic.Lib.StableHlo.Run

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen Cert.Edges Cert.EdgeIdx

variable (m : (ℓ : Loc nD τ sig) → Buf (Elt Ideal) ℓ) (ρ : Dev nD → PrngReg)

set_option maxHeartbeats 2000000 in
/-- The second window's array, as the region finds it, is the matrix of per-cell totals of the launch's edge list. -/
theorem totals_eq (c : Dev nD) :
    (V m c main_v14 : SNN.Idx → EReal)
      = cellTotals (m ((c.tc : Thread nD τ).loc main_arg1)) (m ((c.tc : Thread nD τ).loc main_arg2))
          (m ((c.tc : Thread nD τ).loc main_arg3)) := by
  show StableHlo.after (hostOps0 (F := Ideal)) (fun b => m (c, b)) (Proc.devRef .tc main_v14) = _
  after_results_simp <;> rfl

/-- The program's second result after the run: the result column read as a vector. -/
def rowsOut (c : Dev nD) : SN.Idx → EReal :=
  Pipeline.afterTail₀ cfgs (dats m) 0 (V0 m) [hostOps1] c main_v16

set_option maxHeartbeats 2000000 in
/-- The program's first result is the softmax of its second: the operations after the cast are the softmax's. -/
theorem first_eq_softmax (c : Dev nD) :
    (Pipeline.afterTail₀ cfgs (dats m) 0 (V0 m) [hostOps1] c main_v26 : SN.Idx → EReal) = softmax (rowsOut m c) := by
  unfold rowsOut Pipeline.afterTail₀
  show (StableHlo.after (hostOps1 (F := Ideal)) _ (Proc.devRef .tc main_v26) : SN.Idx → EReal)
    = softmax (StableHlo.after (hostOps1 (F := Ideal)) _ (Proc.devRef .tc main_v16) : SN.Idx → EReal)
  after_results_simp <;> rfl

/-- Entry `r` of the second result is row `r` of the region's result column. -/
theorem rowsOut_apply (c : Dev nD) (r : Fin 8192) :
    rowsOut m c (ix1 r) = rowDots (V m c main_arg0) (V m c main_v14) (ix2 r (0 : Fin 1)) := by
  have e := Pipeline.withArrays_arr spec0 launch0.win.arr_inj c (V0 m c) (fun w => (dats m 0 c).arrAt w cfg0.N) 2
  unfold rowsOut Pipeline.afterTail₀
  show (StableHlo.after (hostOps1 (F := Ideal)) _ (Proc.devRef .tc main_v16) : SN.Idx → EReal) (ix1 r) = _
  after_results
  show shapeCast S8192 (Pipeline.withArrays spec0 c (V0 m c) (fun w => (dats m 0 c).arrAt w cfg0.N)
    (Proc.devRef .tc (Pipeline.arrRef spec0 2))) shapeCasts_S8192x1_S8192 (ix1 r) = _
  rw [e, array_eq]
  exact shapeCast_apply _ _ (ix1 r) (ix2 r (0 : Fin 1)) (by
    rw [Shape.rowMajor_val_two, Shape.rowMajor_val_one]
    show r.val * 1 + 0 = r.val
    omega)

/-- Row `r` of the products with the per-cell totals, with each total written as the sum over its cell's edges. -/
theorem rowDots_totals (A : SNN.Idx → EReal) (x1 x2 : SE.Idx → BitVec 32) (x3 : SE.Idx → EReal) (h1 : InRange x1)
    (h2 : InRange x2) (r : Fin 8192) :
    rowDots A (cellTotals x1 x2 x3) (ix2 r (0 : Fin 1))
      = ∑ q : Fin 8192, A (ix2 r q)
          * (0 + ∑ e ∈ Finset.univ.filter (fun e : SE.Idx => (x1 e).toNat = r.val ∧ (x2 e).toNat = q.val), x3 e) := by
  unfold rowDots
  refine Finset.sum_congr rfl fun q _ => ?_
  show A (ix2 r q) * cellTotals x1 x2 x3 (ix2 r q) = _
  rw [cellTotals_apply _ _ _ h1 h2 r q]

/-- THE SECOND RESULT is the vector of row sums of the launch's edge list. -/
theorem rowsOut_eq (c : Dev nD)
    (h1 : InRange (m ((c.tc : Thread nD τ).loc main_arg1))) (h2 : InRange (m ((c.tc : Thread nD τ).loc main_arg2)))
    (f0 : Finite (s := SNN) (m ((c.tc : Thread nD τ).loc main_arg0))) (f3 : Finite (s := SE) (m ((c.tc : Thread nD τ).loc main_arg3))) :
    rowsOut m c = rowSums (m ((c.tc : Thread nD τ).loc main_arg0)) (m ((c.tc : Thread nD τ).loc main_arg1))
      (m ((c.tc : Thread nD τ).loc main_arg2)) (m ((c.tc : Thread nD τ).loc main_arg3)) := by
  funext i
  obtain ⟨r, rfl⟩ : ∃ r : Fin 8192, i = ix1 r := ⟨i 0, eq_ix1 i⟩
  rw [rowSums_apply, rowsOut_apply, totals_eq, V_main_arg0]
  exact (rowDots_totals _ _ _ _ h1 h2 r).trans (dots_eq_rowSum _ _ _ _ h2 f0 f3 r)

/-- The run, with both results named by the row sums; the arguments end as launched (each as the generated frame reads it off the
    run's post). -/
theorem run_rows
    (h1 : ∀ c : Dev nD, InRange (m ((c.tc : Thread nD τ).loc main_arg1)))
    (h2 : ∀ c : Dev nD, InRange (m ((c.tc : Thread nD τ).loc main_arg2)))
    (f0 : ∀ c : Dev nD, Finite (s := SNN) (m ((c.tc : Thread nD τ).loc main_arg0)))
    (f3 : ∀ c : Dev nD, Finite (s := SE) (m ((c.tc : Thread nD τ).loc main_arg3))) :
    θ_run defs (onTc (τ := τ) (main (F := Ideal))) ⟨m, fun _ => 0, ρ⟩ fun r => ∀ c : Dev nD,
      r.2.mem ((c.tc : Thread nD τ).loc main_v26)
          = softmax (rowSums (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_v16)
          = rowSums (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v26 (Pipeline.mem_restRefs_of main_v26 (by decide) (by decide))).trans
        ((first_eq_softmax m c).trans (congrArg softmax (rowsOut_eq m c (h1 c) (h2 c) (f0 c) (f3 c)))),
      ((h c).2 main_v16 (Pipeline.mem_restRefs_of main_v16 (by decide) (by decide))).trans
        (rowsOut_eq m c (h1 c) (h2 c) (f0 c) (f3 c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefRows.lean ====
/-
  THE REFERENCE PROGRAM'S ROW SUMS. The reference program's second result adds, into a vector of zeros, one update per
  edge: the matrix entry gathered at the edge's (row, column) pair times the edge's weight, scattered to the entry named by
  the edge's raw row word. With every row and column word in range:

  * the vector scattered into is zero everywhere;
  * edge `e`'s update lands in row `r` exactly when its row word, read signed, is `r`, that is when `(x1 e).toNat = r`;
  * the start-index table holds the two words themselves (the wrap of negative indices is the identity in range), no clamp
    binds, so edge `e` gathers `x0 (x1 e, x2 e)`; on the edges of row `r` that is `x0 (r, colOf (x2 e))`.

  So the result at row `r` is `0 + ∑ {e | x1 e = r} x0 (r, x2 e) * x3 e`, the row sum.
-/
import proofs.«406384_j64398739637009_3_alg».proof.Proof.Gen.ReferenceIdeal.Read
import proofs.«406384_j64398739637009_3_alg».proof.Proof.EdgeTable
import Idealize.ShloMosaic.PureOps.Ideal.Laws
noncomputable section
namespace Cert.ReferenceIdeal.Hand
open Idealize.ShloMosaic Idealize.ShloMosaic.ValueIdx Cert.Edges Cert.EdgeIdx Cert.ReferenceIdeal Cert.ReferenceIdeal.Read Finset

/-- The scatter's operand is zero everywhere. -/
theorem zeros_apply (i : S8192.Idx) : val_main_v15 (F := Ideal) i = (0 : EReal) := by
  rw [val_main_v15_apply, val_main_cst_apply, Ideal.ofBits_def]
  exact Ideal.ofBits_zero_f32

/-- Edge `e`'s update lands in row `r` iff its row word is `r`. -/
theorem lands (x1 : SE.Idx → BitVec 32) (h1 : InRange x1) (e : Fin 262144) (r : Fin 8192) :
    scatter_S8192_S262144x1_S262144_n_0_0_1.resultIdx? (ix1 e) (val_main_v16 (F := Ideal) x1) = some (ix1 r)
      ↔ (x1 (ix1 e)).toNat = r.val := by
  have hd : scatter_S8192_S262144x1_S262144_n_0_0_1
      = rowDims Facts₀.scatter_S8192_S262144x1_S262144_n_0_0_1_wf := rfl
  rw [hd]
  refine (row_lands _ e (val_main_v16 (F := Ideal) x1) r).trans ?_
  have hc : val_main_v16 (F := Ideal) x1 (ix2 e (0 : Fin 1)) = x1 (ix1 e) := by
    refine (val_main_v16_apply (F := Ideal) x1 (ix2 e (0 : Fin 1))).trans ?_
    refine congrArg x1 ?_
    funext a
    match a with
    | ⟨0, _⟩ => rfl
  rw [hc, toInt_of_lt _ (h1 (ix1 e))]
  exact Int.natCast_inj

/-- Edge `e` gathers the matrix entry in the cell its two words name. -/
theorem gathered (x0 : SNN.Idx → EReal) (x1 x2 : SE.Idx → BitVec 32) (h1 : InRange x1) (h2 : InRange x2)
    (e : Fin 262144) (r q : Fin 8192) (hr : (x1 (ix1 e)).toNat = r.val) (hq : (x2 (ix1 e)).toNat = q.val) :
    val_main_v13 (F := Ideal) x0 x1 x2 (ix1 e) = x0 (ix2 r q) := by
  have hd : gather_S8192x8192_S262144x2_S262144_n_01_n_n_01_1_11
      = pointDims Facts₀.gather_S8192x8192_S262144x2_S262144_n_01_n_n_01_1_11_wf := rfl
  have ht : val_main_v12 (F := Ideal) x1 x2
      = table Gen.bcast_S_S262144 Gen.bcast_S262144_S262144x1_0 Gen.concatenates_S262144x1_S262144x1_S262144x2_d1 x1 x2 := rfl
  show x0 (gather_S8192x8192_S262144x2_S262144_n_01_n_n_01_1_11.operandIdx (ix1 e) (val_main_v12 (F := Ideal) x1 x2)) = x0 (ix2 r q)
  refine congrArg x0 ?_
  rw [hd, ht]
  refine point_reads _ e _ r q ?_ ?_
  · rw [table_row _ _ _ x1 x2 h1 e, toInt_of_lt _ (h1 (ix1 e)), hr]
  · rw [table_col _ _ _ x1 x2 h2 e, toInt_of_lt _ (h2 (ix1 e)), hq]

theorem rows_eq [Cert.ReferenceIdeal.Facts] (x0 : SNN.Idx → EReal) (x1 x2 : SE.Idx → BitVec 32) (x3 : SE.Idx → EReal)
    (h1 : InRange x1) (h2 : InRange x2) :
    val_main_v17 (F := Ideal) x0 x1 x2 x3 = rowSums x0 x1 x2 x3 := by
  funext i
  obtain ⟨r, rfl⟩ : ∃ r : Fin 8192, i = ix1 r := ⟨i 0, eq_ix1 i⟩
  rw [rowSums_apply]
  show val_main_v15 (F := Ideal) (ix1 r)
      + ∑ j ∈ univ.filter (fun j => scatter_S8192_S262144x1_S262144_n_0_0_1.resultIdx? j (val_main_v16 (F := Ideal) x1) = some (ix1 r)),
          val_main_v14 (F := Ideal) x0 x1 x2 x3 j
    = 0 + ∑ e ∈ univ.filter (fun e : SE.Idx => (x1 e).toNat = r.val), x0 (ix2 r (colOf (x2 e))) * x3 e
  rw [zeros_apply]
  refine congrArg (fun s => (0 : EReal) + s) ?_
  refine Finset.sum_congr (Finset.filter_congr fun j _ => ?_) fun j hj => ?_
  · obtain ⟨e, rfl⟩ : ∃ e : Fin 262144, j = ix1 e := ⟨j 0, eq_ix1 j⟩
    exact lands x1 h1 e r
  · obtain ⟨e, rfl⟩ : ∃ e : Fin 262144, j = ix1 e := ⟨j 0, eq_ix1 j⟩
    have he : (x1 (ix1 e)).toNat = r.val := (Finset.mem_filter.mp hj).2
    show val_main_v13 (F := Ideal) x0 x1 x2 (ix1 e) * x3 (ix1 e) = x0 (ix2 r (colOf (x2 (ix1 e)))) * x3 (ix1 e)
    rw [gathered x0 x1 x2 h1 h2 e r (colOf (x2 (ix1 e))) he (colOf_val _ (h2 (ix1 e))).symm]
end Cert.ReferenceIdeal.Hand
end
-- ==== Proof.RefRun.lean ====
/-
  THE REFERENCE PROGRAM'S RUN, READ. Every weakly fair execution of the reference program terminates with its second result at
  the row sums of the launch's edge list and its first result at their softmax, the arguments unchanged — when the row and
  column words are in range. The run itself is the generated one; what is added is that its second term is the row sums
  (the scatter and the gather read at an index) and that its first term is the softmax of the second (the same operations).
-/
import proofs.«406384_j64398739637009_3_alg».proof.Proof.Gen.ReferenceIdeal.Run
import proofs.«406384_j64398739637009_3_alg».proof.Proof.Gen.ReferenceIdeal.Read
import proofs.«406384_j64398739637009_3_alg».proof.Proof.RefRows
import proofs.«406384_j64398739637009_3_alg».proof.Proof.Softmax

noncomputable section

namespace Cert.ReferenceIdeal.Hand

open Idealize.ShloMosaic Idealize.ShloMosaic.TcCoe Idealize.ShloMosaic.ValueIdx Idealize.SL.Sem
open Cert.Edges Cert.EdgeIdx Cert.ReferenceIdeal Cert.ReferenceIdeal.Read

/-- The program's first result is the softmax of its second: the operations after the scatter are the softmax's. -/
theorem first_eq_softmax (x0 : SNN.Idx → EReal) (x1 x2 : SE.Idx → BitVec 32) (x3 : SE.Idx → EReal) :
    val_main_v27 (F := Ideal) x0 x1 x2 x3 = softmax (val_main_v17 (F := Ideal) x0 x1 x2 x3) := rfl

variable (m : (ℓ : Loc nD τ sig) → Buf (Elt Ideal) ℓ) (ρ : Dev nD → PrngReg)

/-- The run, with both results named by the row sums. -/
theorem run_rows
    (h1 : ∀ c : Dev nD, InRange (m ((c.tc : Thread nD τ).loc main_arg1)))
    (h2 : ∀ c : Dev nD, InRange (m ((c.tc : Thread nD τ).loc main_arg2))) :
    θ_run defs (onTc (τ := τ) (main (F := Ideal))) ⟨m, fun _ => 0, ρ⟩ fun r => ∀ c : Dev nD,
      r.2.mem ((c.tc : Thread nD τ).loc main_v27)
          = softmax (rowSums (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_v17)
          = rowSums (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans ((val_main_v27_eq m c).trans ((first_eq_softmax _ _ _ _).trans
        (congrArg softmax (rows_eq _ _ _ _ (h1 c) (h2 c))))),
      (h c).2.1.trans ((val_main_v17_eq _ _ _ _).trans (rows_eq _ _ _ _ (h1 c) (h2 c))),
      (h c).2.2⟩)
    (Cert.ReferenceIdeal.Value.run (F := Ideal) m ρ)

end Cert.ReferenceIdeal.Hand

end
-- ==== Proof.lean ====
/-
  THE CLAIM. Two programs take an [8192 × 8192] matrix and a list of 262144 weighted edges (row words, column words, weights)
  and return the softmax of the matrix's per-row sums over the edge list, and the sums themselves:

      sums r = ∑ {e | row e = r} matrix (r, col e) * weight e.

  The reference gathers the entry under each edge, multiplies by the weight and adds the product into the edge's row. The
  kernel first adds every weight into its cell of a zero matrix, then multiplies that matrix of per-cell totals entry by
  entry with the data matrix and sums each row, 128 rows per grid point. Over the reals the two agree by distributing an
  entry over its cell's total and regrouping the double sum by edges (Proof/EdgeSum.lean, Proof/RowLaw.lean); that uses the
  precondition's finiteness of the matrix and the weights. The precondition's second half, every row and column word in
  [0, 8192), is what makes both programs read a word as the row or column it names: outside it the kernel's scatter wraps a
  negative row word where the reference's does not, and the reference's gather clamps a column word the kernel's scatter
  drops. The softmax is the same operations on both sides (Proof/Softmax.lean) and is never opened.

  The frames of the two kernel programs are the generated ones; the reference's is its generated run with the results
  dropped. No operation was rewritten by the idealization, so there is nothing to preserve.
-/
import proofs.«406384_j64398739637009_3_alg».proof.Defs
import proofs.«406384_j64398739637009_3_alg».proof.Proof.Gen.Kernel
import proofs.«406384_j64398739637009_3_alg».proof.Proof.Gen.Kernel.Skeleton
import proofs.«406384_j64398739637009_3_alg».proof.Proof.Gen.Kernel.Launch
import proofs.«406384_j64398739637009_3_alg».proof.Proof.Gen.Kernel.Points
import proofs.«406384_j64398739637009_3_alg».proof.Proof.Gen.Kernel.Frame
import proofs.«406384_j64398739637009_3_alg».proof.Proof.Gen.KernelIdeal
import proofs.«406384_j64398739637009_3_alg».proof.Proof.Gen.KernelIdeal.Skeleton
import proofs.«406384_j64398739637009_3_alg».proof.Proof.Gen.KernelIdeal.Launch
import proofs.«406384_j64398739637009_3_alg».proof.Proof.Gen.KernelIdeal.Points
import proofs.«406384_j64398739637009_3_alg».proof.Proof.Gen.KernelIdeal.Frame
import proofs.«406384_j64398739637009_3_alg».proof.Proof.Gen.ReferenceIdeal
import proofs.«406384_j64398739637009_3_alg».proof.Proof.Gen.ReferenceIdeal.Run
import proofs.«406384_j64398739637009_3_alg».proof.Proof.Gen.ReferenceIdeal.Read
import proofs.«406384_j64398739637009_3_alg».proof.Proof.Gen.Pre_finite_inputs
import proofs.«406384_j64398739637009_3_alg».proof.Proof.PreDecode
import proofs.«406384_j64398739637009_3_alg».proof.Proof.KernelRun
import proofs.«406384_j64398739637009_3_alg».proof.Proof.RefRun
import Idealize.ShloMosaic.Adequacy
import Idealize.ShloMosaic.Init

noncomputable section

namespace Cert.Proof

open Idealize.ShloMosaic Idealize.SL.Sem Cert.Edges Cert.EdgeIdx

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- Both programs end at the softmax of the row sums and at the row sums, of arguments that agree. -/
theorem algebraic : Cert.algebraic_KernelIdeal_ReferenceIdeal := by
  intro m ρ m' ρ' hpre hagree
  have hd := fun c => Cert.PreDecode.of_pre _ _ _ _ (hpre c)
  refine ⟨_, _, Cert.KernelIdeal.Hand.run_rows m ρ (fun c => (hd c).2.2.1) (fun c => (hd c).2.2.2)
    (fun c => (hd c).1) (fun c => (hd c).2.1), ?_⟩
  refine (θ_run Cert.ReferenceIdeal.defs _ _).mono (fun _ h c => ?_)
    (Cert.ReferenceIdeal.Hand.run_rows m' ρ'
      (fun c => by rw [(hagree c).2.1]; exact (hd c).2.2.1)
      (fun c => by rw [(hagree c).2.2.1]; exact (hd c).2.2.2))
  obtain ⟨a0, a1, a2, a3⟩ := hagree c
  refine ⟨(h c).1.trans ?_, (h c).2.1.trans ?_, (h c).2.2⟩
  · rw [a0, a1, a2, a3]
  · rw [a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
